-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S5532x256 : S_.BroadcastsInDim S5532x256 (![] : Fin 0 → Fin S5532x256.rank)
  reducesTo_S5532x256_S_d0_1 : S5532x256.ReducesTo [0, 1] S_
  bcast_S_S5000x256 : S_.BroadcastsInDim S5000x256 (![] : Fin 0 → Fin S5000x256.rank)
  reducesTo_S5000x256_S_d0_1 : S5000x256.ReducesTo [0, 1] S_

variable [Facts]

def fn {F : FTy → Type} [FloatOps F] (main_arg0 : FVec F S4096x256 .f32) (main_arg1 : IVec S4096 32) (main_arg2 : IVec S4096 1) (main_arg3 : FVec F S5532x256 .f32) (main_arg4 : FVec F S5000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S5532x256 .f32 := Host.absf main_arg3
  let main_cst_0 : FVec F S_ .f32 := constant S_ .f32 0x7F800000#32
  let main_v5 : FVec F S5532x256 .f32 := broadcastInDim S5532x256 ![] bcast_S_S5532x256 main_cst_0
  let main_v6 : IVec S5532x256 1 := cmpf .olt main_v4 main_v5
  let main_c_1 : IVec S_ 1 := constantI S_ 1 1#1
  let main_v7 : IVec S_ 1 := (fun x v => Host.reduce IntOp.andi x v reducesTo_S5532x256_S_d0_1 h_S_) main_v6 main_c_1
  let main_v8 : IVec S_ 1 := andi main_v3 main_v7
  let main_v9 : FVec F S5000x256 .f32 := Host.absf main_arg4
  let main_cst_2 : FVec F S_ .f32 := constant S_ .f32 0x7F800000#32
  let main_v10 : FVec F S5000x256 .f32 := broadcastInDim S5000x256 ![] bcast_S_S5000x256 main_cst_2
  let main_v11 : IVec S5000x256 1 := cmpf .olt main_v9 main_v10
  let main_c_3 : IVec S_ 1 := constantI S_ 1 1#1
  let main_v12 : IVec S_ 1 := (fun x v => Host.reduce IntOp.andi x v reducesTo_S5000x256_S_d0_1 h_S_) main_v11 main_c_3
  let main_v13 : IVec S_ 1 := andi main_v8 main_v12
  main_v13
-- ==== Kernel.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S4096x10532 : Shape := ⟨2, ![4096, 10532]⟩
abbrev S128x256 : Shape := ⟨2, ![128, 256]⟩
abbrev S128x10532 : Shape := ⟨2, ![128, 10532]⟩
abbrev S128x5532 : Shape := ⟨2, ![128, 5532]⟩
abbrev S128x5000 : Shape := ⟨2, ![128, 5000]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096, .i1⟩
  | .hbm, ⟨3, _⟩ => ⟨S5532x256, .f32⟩
  | .hbm, ⟨4, _⟩ => ⟨S5000x256, .f32⟩
  | .hbm, ⟨5, _⟩ => ⟨S4096x10532, .f32⟩
  | .local _ .vmem, ⟨0, _⟩ => ⟨S128x256, .f32⟩
  | .local _ .vmem, ⟨1, _⟩ => ⟨S128x256, .f32⟩
  | .local _ .vmem, ⟨2, _⟩ => ⟨S5532x256, .f32⟩
  | .local _ .vmem, ⟨3, _⟩ => ⟨S5000x256, .f32⟩
  | .local _ .vmem, ⟨4, _⟩ => ⟨S128x10532, .f32⟩
  | .local _ .vmem, ⟨5, _⟩ => ⟨S128x10532, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5532x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x10532 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S5532x256_S5532x256_0_0 : ∀ a, (![0, 0] : Fin 2 → Nat) a + S5532x256.size a ≤ S5532x256.size a
  h_S5532x256 : 0 < S5532x256.numel
  inb_S5000x256_S5000x256_0_0 : ∀ a, (![0, 0] : Fin 2 → Nat) a + S5000x256.size a ≤ S5000x256.size a
  h_S5000x256 : 0 < S5000x256.numel
  inb_S128x10532_S128x5532_0_0 : ∀ a, (![0, 0] : Fin 2 → Nat) a + S128x5532.size a ≤ S128x10532.size a
  h_S128x5532 : 0 < S128x5532.numel
  inb_S128x10532_S128x5000_0_5532 : ∀ a, (![0, 5532] : Fin 2 → Nat) a + S128x5000.size a ≤ S128x10532.size a
  h_S128x5000 : 0 < S128x5000.numel
  dot_S128x256_S5532x256_S128x5532_1_1_0_0_n_n_wf : DotDims.WF S128x256 S5532x256 S128x5532 [1] [1] [0] [0] [] []
  dot_S128x256_S5000x256_S128x5000_1_1_0_0_n_n_wf : DotDims.WF S128x256 S5000x256 S128x5000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5532x256.size a ≤ S5532x256.size a
  hwx0_1 : ∀ i : grid0.Coords, EltTy.bits .f32 = 32 ∨ (Rect.block (s := S5532x256) S5532x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S5000x256.size a
  hwx0_2 : ∀ i : grid0.Coords, EltTy.bits .f32 = 32 ∨ (Rect.block (s := S5000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x10532.size a ≤ S4096x10532.size a
  hwx0_3 : ∀ i : grid0.Coords, EltTy.bits .f32 = 32 ∨ (Rect.block (s := S4096x10532) S128x10532.size (cc0_transform_3 i) (hinb0_3 i)).WholeWords (EltTy.packing .f32)

variable [Facts₀]

def dot_S128x256_S5532x256_S128x5532_1_1_0_0_n_n : DotDims S128x256 S5532x256 S128x5532 where
  lhsContracting := [1]
  rhsContracting := [1]
  lhsNonContracting := [0]
  rhsNonContracting := [0]
  lhsBatch := []
  rhsBatch := []
  wf := dot_S128x256_S5532x256_S128x5532_1_1_0_0_n_n_wf
def dot_S128x256_S5000x256_S128x5000_1_1_0_0_n_n : DotDims S128x256 S5000x256 S128x5000 where
  lhsContracting := [1]
  rhsContracting := [1]
  lhsNonContracting := [0]
  rhsNonContracting := [0]
  lhsBatch := []
  rhsBatch := []
  wf := dot_S128x256_S5000x256_S128x5000_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5532x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x10532.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S256x5532 : Shape := ⟨2, ![256, 5532]⟩
abbrev S4096x5532 : Shape := ⟨2, ![4096, 5532]⟩
abbrev S256x5000 : Shape := ⟨2, ![256, 5000]⟩
abbrev S4096x5000 : Shape := ⟨2, ![4096, 5000]⟩
abbrev S4096x10532 : Shape := ⟨2, ![4096, 10532]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096, .i1⟩
  | .hbm, ⟨3, _⟩ => ⟨S5532x256, .f32⟩
  | .hbm, ⟨4, _⟩ => ⟨S5000x256, .f32⟩
  | .hbm, ⟨5, _⟩ => ⟨S256x5532, .f32⟩
  | .hbm, ⟨6, _⟩ => ⟨S4096x5532, .f32⟩
  | .hbm, ⟨7, _⟩ => ⟨S256x5000, .f32⟩
  | .hbm, ⟨8, _⟩ => ⟨S4096x5000, .f32⟩
  | .hbm, ⟨9, _⟩ => ⟨S4096x10532, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  transposes_S5532x256_S256x5532_1_0 : S5532x256.Transposes [1, 0] S256x5532
  transposes_S5000x256_S256x5000_1_0 : S5000x256.Transposes [1, 0] S256x5000
  concatenates_S4096x5532_S4096x5000_S4096x10532_d1 : Shape.Concatenates [S4096x5532, S4096x5000] S4096x10532 1
  dot_S4096x256_S256x5532_S4096x5532_1_0_0_1_n_n_wf : DotDims.WF S4096x256 S256x5532 S4096x5532 [1] [0] [0] [1] [] []
  dot_S4096x256_S256x5000_S4096x5000_1_0_0_1_n_n_wf : DotDims.WF S4096x256 S256x5000 S4096x5000 [1] [0] [0] [1] [] []

variable [Facts₀]

def dot_S4096x256_S256x5532_S4096x5532_1_0_0_1_n_n : DotDims S4096x256 S256x5532 S4096x5532 where
  lhsContracting := [1]
  rhsContracting := [0]
  lhsNonContracting := [0]
  rhsNonContracting := [1]
  lhsBatch := []
  rhsBatch := []
  wf := dot_S4096x256_S256x5532_S4096x5532_1_0_0_1_n_n_wf
def dot_S4096x256_S256x5000_S4096x5000_1_0_0_1_n_n : DotDims S4096x256 S256x5000 S4096x5000 where
  lhsContracting := [1]
  rhsContracting := [0]
  lhsNonContracting := [0]
  rhsNonContracting := [1]
  lhsBatch := []
  rhsBatch := []
  wf := dot_S4096x256_S256x5000_S4096x5000_1_0_0_1_n_n_wf

class Facts : Prop extends Facts₀ where

variable [Facts]
-- ==== Proof.Scores.lean ====
/-
  The similarity scores as ONE function of the three argument arrays, index by index.

  Row `r` of the result holds the inner products of feature row `r` with every row of the labeled table
  (columns `0 … 5531`) followed by its inner products with every row of the queue (columns `5532 … 10531`):
  entry `(r, j)` is `Σ_k x[r,k] · lut[j,k]` for `j < 5532` and `Σ_k x[r,k] · queue[j − 5532, k]` otherwise,
  each a sum of 256 products on the extended reals. Nothing here depends on the number of feature rows, so
  the same function describes the whole result (4096 rows) and one block of it (128 rows).
-/
import Idealize.ShloMosaic.PureOps.Ideal
import Idealize.ShloMosaic.Lib.ValueIdx

noncomputable section

open scoped BigOperators

namespace Cert.Scores

open Idealize.ShloMosaic Idealize.ShloMosaic.ValueIdx

/-- The inner product of row `r` of a `[R, 256]` array with row `q` of a `[Q, 256]` array. -/
def rowDot {R Q : Nat} (x : (⟨2, ![R, 256]⟩ : Shape).Idx → EReal) (w : (⟨2, ![Q, 256]⟩ : Shape).Idx → EReal)
    (r : Fin R) (q : Fin Q) : EReal :=
  ∑ k : Fin 256, x (ix2 r k) * w (ix2 q k)

/-- Entry `(r, j)` of the scores: a labeled column below 5532, a queue column from 5532 on. -/
def entry {R : Nat} (x : (⟨2, ![R, 256]⟩ : Shape).Idx → EReal) (lut : (⟨2, ![5532, 256]⟩ : Shape).Idx → EReal)
    (que : (⟨2, ![5000, 256]⟩ : Shape).Idx → EReal) (r : Fin R) (j : Fin 10532) : EReal :=
  if h : j.val < 5532 then rowDot x lut r ⟨j.val, h⟩
  else rowDot x que r ⟨j.val - 5532, by have := j.isLt; omega⟩

/-- The scores of `R` feature rows against the two tables, as an `[R, 10532]` array. -/
def scores {R : Nat} (x : (⟨2, ![R, 256]⟩ : Shape).Idx → EReal) (lut : (⟨2, ![5532, 256]⟩ : Shape).Idx → EReal)
    (que : (⟨2, ![5000, 256]⟩ : Shape).Idx → EReal) : (⟨2, ![R, 10532]⟩ : Shape).Idx → EReal :=
  fun i => entry x lut que (i 0) (i 1)

theorem scores_ix2 {R : Nat} (x : (⟨2, ![R, 256]⟩ : Shape).Idx → EReal) (lut : (⟨2, ![5532, 256]⟩ : Shape).Idx → EReal)
    (que : (⟨2, ![5000, 256]⟩ : Shape).Idx → EReal) (r : Fin R) (j : Fin 10532) :
    scores x lut que (ix2 r j) = entry x lut que r j := rfl

/-- A labeled column of the scores. -/
theorem entry_labeled {R : Nat} (x : (⟨2, ![R, 256]⟩ : Shape).Idx → EReal) (lut : (⟨2, ![5532, 256]⟩ : Shape).Idx → EReal)
    (que : (⟨2, ![5000, 256]⟩ : Shape).Idx → EReal) (r : Fin R) (q : Fin 5532) (j : Fin 10532) (hj : j.val = q.val) :
    entry x lut que r j = rowDot x lut r q := by
  have h : j.val < 5532 := by have := q.isLt; omega
  unfold entry
  rw [dif_pos h]
  exact congrArg (rowDot x lut r) (Fin.ext hj)

/-- A queue column of the scores. -/
theorem entry_queue {R : Nat} (x : (⟨2, ![R, 256]⟩ : Shape).Idx → EReal) (lut : (⟨2, ![5532, 256]⟩ : Shape).Idx → EReal)
    (que : (⟨2, ![5000, 256]⟩ : Shape).Idx → EReal) (r : Fin R) (q : Fin 5000) (j : Fin 10532) (hj : j.val = 5532 + q.val) :
    entry x lut que r j = rowDot x que r q := by
  have h : ¬ j.val < 5532 := by omega
  unfold entry
  rw [dif_neg h]
  exact congrArg (rowDot x que r) (Fin.ext (by show j.val - 5532 = q.val; omega))

/-- The scores at an index whose row is `p` and whose column is the labeled column `q`. -/
theorem scores_labeled {R : Nat} (x : (⟨2, ![R, 256]⟩ : Shape).Idx → EReal) (lut : (⟨2, ![5532, 256]⟩ : Shape).Idx → EReal)
    (que : (⟨2, ![5000, 256]⟩ : Shape).Idx → EReal) (i : (⟨2, ![R, 10532]⟩ : Shape).Idx) (p : Fin R) (q : Fin 5532)
    (h0 : (i 0).val = p.val) (h1 : (i 1).val = q.val) : scores x lut que i = rowDot x lut p q :=
  (entry_labeled x lut que (i 0) q (i 1) h1).trans (congrArg (fun r => rowDot x lut r q) (Fin.ext h0))

/-- The scores at an index whose row is `p` and whose column is `5532 + q`, the queue column `q`. -/
theorem scores_queue {R : Nat} (x : (⟨2, ![R, 256]⟩ : Shape).Idx → EReal) (lut : (⟨2, ![5532, 256]⟩ : Shape).Idx → EReal)
    (que : (⟨2, ![5000, 256]⟩ : Shape).Idx → EReal) (i : (⟨2, ![R, 10532]⟩ : Shape).Idx) (p : Fin R) (q : Fin 5000)
    (h0 : (i 0).val = p.val) (h1 : (i 1).val = 5532 + q.val) : scores x lut que i = rowDot x que p q :=
  (entry_queue x lut que (i 0) q (i 1) h1).trans (congrArg (fun r => rowDot x que r q) (Fin.ext h0))

/-- The scores of a block of rows are the block's rows of the scores: row `r` of the block taken at row
    `r'` of the whole feature array, when the two rows hold the same features. -/
theorem entry_of_rows {R R' : Nat} (x : (⟨2, ![R, 256]⟩ : Shape).Idx → EReal) (x' : (⟨2, ![R', 256]⟩ : Shape).Idx → EReal)
    (lut : (⟨2, ![5532, 256]⟩ : Shape).Idx → EReal) (que : (⟨2, ![5000, 256]⟩ : Shape).Idx → EReal)
    (r : Fin R) (r' : Fin R') (hrow : ∀ k : Fin 256, x (ix2 r k) = x' (ix2 r' k)) (j : Fin 10532) :
    entry x lut que r j = entry x' lut que r' j := by
  unfold entry rowDot
  split
  · exact Finset.sum_congr rfl fun k _ => by rw [hrow k]
  · exact Finset.sum_congr rfl fun k _ => by rw [hrow k]

/-- A block of the scores is the scores of the block: when block row `j 0` of `x0` holds the features of row `i 0` of
    `X`, the tables are the same, and the two indices have the same column, the block's entry at `j` is the array's at `i`. -/
theorem scores_block {R R' : Nat} (x0 : (⟨2, ![R, 256]⟩ : Shape).Idx → EReal) (X : (⟨2, ![R', 256]⟩ : Shape).Idx → EReal)
    (x1 L : (⟨2, ![5532, 256]⟩ : Shape).Idx → EReal) (x2 Q : (⟨2, ![5000, 256]⟩ : Shape).Idx → EReal)
    (j : (⟨2, ![R, 10532]⟩ : Shape).Idx) (i : (⟨2, ![R', 10532]⟩ : Shape).Idx)
    (hx : ∀ k : Fin 256, x0 (ix2 (j 0) k) = X (ix2 (i 0) k)) (h1 : x1 = L) (h2 : x2 = Q) (hcol : (i 1).val = (j 1).val) :
    scores x0 x1 x2 j = scores X L Q i := by
  subst h1 h2
  have hc : (j 1 : Fin 10532) = i 1 := Fin.ext hcol.symm
  show entry x0 x1 x2 (j 0) (j 1) = entry X x1 x2 (i 0) (i 1)
  rw [hc]
  exact entry_of_rows x0 X x1 x2 (j 0) (i 0) hx (i 1)

end Cert.Scores

end
-- ==== Proof.KernelProducts.lean ====
/-
  The kernel's two matrix products, read at an index.

  The body multiplies its 128 × 256 block of features by each table with the contraction on axis 1 of BOTH operands
  (features times the table transposed, no transpose materialised) into a zero accumulator. At the ideal values the
  narrowing of the operands to bf16 is the identity and the product is the plain sum over the contracted axis, so
  entry `(p, q)` of a product is `Σ_k x[p,k] · w[q,k]`: the inner product of block row `p` with table row `q`
  (`Cert.Scores.rowDot`). The operand indices of the product at output index `(p, q)` and contraction position `k`
  are `(p, k)` on the left and `(q, k)` on the right: each operand's axis 0 is its free axis, its axis 1 the contracted one.
-/
import proofs.«178102_j50637664420263_1_alg».proof.Proof.Gen.KernelIdeal.Skeleton
import proofs.«178102_j50637664420263_1_alg».proof.Proof.Scores
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx Cert.Scores

/-! ## Features times the labeled table: the operand indices, axis by axis -/

theorem lhs_lut_0 (i : S128x5532.Idx) (q : dot_S128x256_S5532x256_S128x5532_1_1_0_0_n_n.contr.Idx) :
    (dot_S128x256_S5532x256_S128x5532_1_1_0_0_n_n.lhsIdx i q 0).val = (i 0).val := by
  unfold DotDims.lhsIdx
  rw [dif_neg (show ¬(0 : Fin S128x256.rank) ∈ dot_S128x256_S5532x256_S128x5532_1_1_0_0_n_n.lhsBatch by decide), dif_pos (show (0 : Fin S128x256.rank) ∈ dot_S128x256_S5532x256_S128x5532_1_1_0_0_n_n.lhsNonContracting by decide)]
  rfl
theorem lhs_lut_1 (i : S128x5532.Idx) (q : dot_S128x256_S5532x256_S128x5532_1_1_0_0_n_n.contr.Idx) :
    (dot_S128x256_S5532x256_S128x5532_1_1_0_0_n_n.lhsIdx i q 1).val = (q ⟨0, by decide⟩).val :=
  dot_S128x256_S5532x256_S128x5532_1_1_0_0_n_n.lhsIdx_val_of_single rfl i q
theorem rhs_lut_0 (i : S128x5532.Idx) (q : dot_S128x256_S5532x256_S128x5532_1_1_0_0_n_n.contr.Idx) :
    (dot_S128x256_S5532x256_S128x5532_1_1_0_0_n_n.rhsIdx i q 0).val = (i 1).val := by
  unfold DotDims.rhsIdx
  rw [dif_neg (show ¬(0 : Fin S5532x256.rank) ∈ dot_S128x256_S5532x256_S128x5532_1_1_0_0_n_n.rhsBatch by decide), dif_pos (show (0 : Fin S5532x256.rank) ∈ dot_S128x256_S5532x256_S128x5532_1_1_0_0_n_n.rhsNonContracting by decide)]
  rfl
theorem rhs_lut_1 (i : S128x5532.Idx) (q : dot_S128x256_S5532x256_S128x5532_1_1_0_0_n_n.contr.Idx) :
    (dot_S128x256_S5532x256_S128x5532_1_1_0_0_n_n.rhsIdx i q 1).val = (q ⟨0, by decide⟩).val :=
  dot_S128x256_S5532x256_S128x5532_1_1_0_0_n_n.rhsIdx_val_of_single rfl i q

/-! ## Features times the queue: the operand indices, axis by axis -/

theorem lhs_que_0 (i : S128x5000.Idx) (q : dot_S128x256_S5000x256_S128x5000_1_1_0_0_n_n.contr.Idx) :
    (dot_S128x256_S5000x256_S128x5000_1_1_0_0_n_n.lhsIdx i q 0).val = (i 0).val := by
  unfold DotDims.lhsIdx
  rw [dif_neg (show ¬(0 : Fin S128x256.rank) ∈ dot_S128x256_S5000x256_S128x5000_1_1_0_0_n_n.lhsBatch by decide), dif_pos (show (0 : Fin S128x256.rank) ∈ dot_S128x256_S5000x256_S128x5000_1_1_0_0_n_n.lhsNonContracting by decide)]
  rfl
theorem lhs_que_1 (i : S128x5000.Idx) (q : dot_S128x256_S5000x256_S128x5000_1_1_0_0_n_n.contr.Idx) :
    (dot_S128x256_S5000x256_S128x5000_1_1_0_0_n_n.lhsIdx i q 1).val = (q ⟨0, by decide⟩).val :=
  dot_S128x256_S5000x256_S128x5000_1_1_0_0_n_n.lhsIdx_val_of_single rfl i q
theorem rhs_que_0 (i : S128x5000.Idx) (q : dot_S128x256_S5000x256_S128x5000_1_1_0_0_n_n.contr.Idx) :
    (dot_S128x256_S5000x256_S128x5000_1_1_0_0_n_n.rhsIdx i q 0).val = (i 1).val := by
  unfold DotDims.rhsIdx
  rw [dif_neg (show ¬(0 : Fin S5000x256.rank) ∈ dot_S128x256_S5000x256_S128x5000_1_1_0_0_n_n.rhsBatch by decide), dif_pos (show (0 : Fin S5000x256.rank) ∈ dot_S128x256_S5000x256_S128x5000_1_1_0_0_n_n.rhsNonContracting by decide)]
  rfl
theorem rhs_que_1 (i : S128x5000.Idx) (q : dot_S128x256_S5000x256_S128x5000_1_1_0_0_n_n.contr.Idx) :
    (dot_S128x256_S5000x256_S128x5000_1_1_0_0_n_n.rhsIdx i q 1).val = (q ⟨0, by decide⟩).val :=
  dot_S128x256_S5000x256_S128x5000_1_1_0_0_n_n.rhsIdx_val_of_single rfl i q

/-! ## The two stored values at an index -/

/-- Entry `(p, q)` of the value stored in the block's first 5532 columns: block row `p` against labeled row `q`. -/
theorem labeled_payload (x0 : Vec Ideal S128x256 .f32) (x1 : Vec Ideal S5532x256 .f32) (p : Fin 128) (q : Fin 5532) :
    k0_pay2 (F := Ideal) x0 x1 (ix2 p q) = rowDot x0 x1 p q := by
  unfold k0_pay2 k0_pay1
  simp only [matmul]
  rw [Ideal.matmul_constant_zero_apply, ← Equiv.sum_comp (contrEquiv1 dot_S128x256_S5532x256_S128x5532_1_1_0_0_n_n 256 rfl rfl).symm]
  unfold rowDot
  refine Finset.sum_congr rfl fun k _ => ?_
  have hk := contrEquiv1_symm_val dot_S128x256_S5532x256_S128x5532_1_1_0_0_n_n 256 rfl rfl k
  have el : dot_S128x256_S5532x256_S128x5532_1_1_0_0_n_n.lhsIdx (ix2 p q) ((contrEquiv1 dot_S128x256_S5532x256_S128x5532_1_1_0_0_n_n 256 rfl rfl).symm k) = ix2 p k := funext fun a => Fin.ext (by
    match a with
    | ⟨0, _⟩ => exact lhs_lut_0 _ _
    | ⟨1, _⟩ => exact (lhs_lut_1 _ _).trans hk)
  have er : dot_S128x256_S5532x256_S128x5532_1_1_0_0_n_n.rhsIdx (ix2 p q) ((contrEquiv1 dot_S128x256_S5532x256_S128x5532_1_1_0_0_n_n 256 rfl rfl).symm k) = ix2 q k := funext fun a => Fin.ext (by
    match a with
    | ⟨0, _⟩ => exact rhs_lut_0 _ _
    | ⟨1, _⟩ => exact (rhs_lut_1 _ _).trans hk)
  rw [el, er]
  rfl

/-- Entry `(p, q)` of the value stored in the block's last 5000 columns: block row `p` against queue row `q`. -/
theorem queue_payload (x0 : Vec Ideal S128x256 .f32) (x2 : Vec Ideal S5000x256 .f32) (p : Fin 128) (q : Fin 5000) :
    k0_pay3 (F := Ideal) x0 x2 (ix2 p q) = rowDot x0 x2 p q := by
  unfold k0_pay3 k0_pay1
  simp only [matmul]
  rw [Ideal.matmul_constant_zero_apply, ← Equiv.sum_comp (contrEquiv1 dot_S128x256_S5000x256_S128x5000_1_1_0_0_n_n 256 rfl rfl).symm]
  unfold rowDot
  refine Finset.sum_congr rfl fun k _ => ?_
  have hk := contrEquiv1_symm_val dot_S128x256_S5000x256_S128x5000_1_1_0_0_n_n 256 rfl rfl k
  have el : dot_S128x256_S5000x256_S128x5000_1_1_0_0_n_n.lhsIdx (ix2 p q) ((contrEquiv1 dot_S128x256_S5000x256_S128x5000_1_1_0_0_n_n 256 rfl rfl).symm k) = ix2 p k := funext fun a => Fin.ext (by
    match a with
    | ⟨0, _⟩ => exact lhs_que_0 _ _
    | ⟨1, _⟩ => exact (lhs_que_1 _ _).trans hk)
  have er : dot_S128x256_S5000x256_S128x5000_1_1_0_0_n_n.rhsIdx (ix2 p q) ((contrEquiv1 dot_S128x256_S5000x256_S128x5000_1_1_0_0_n_n 256 rfl rfl).symm k) = ix2 q k := funext fun a => Fin.ext (by
    match a with
    | ⟨0, _⟩ => exact rhs_que_0 _ _
    | ⟨1, _⟩ => exact (rhs_que_1 _ _).trans hk)
  rw [el, er]
  rfl

end Cert.KernelIdeal.Products

end
-- ==== Proof.KernelScores.lean ====
/-
  The kernel computes the similarity scores.

  At grid point `t` (of 32) the body holds rows `128·t … 128·t + 127` of the features and both tables whole, and
  leaves in its 128 × 10532 output block two stored values: features-block times labeled table in columns
  `0 … 5531`, features-block times queue in columns `5532 … 10531`. Both are entries of ONE function of the block
  index, the scores of the 128 block rows (`Cert.Scores.scores` at 128 rows), so the block the body leaves is that
  function whichever stored rectangle an index falls in. A block of the scores is the scores of the block, so
  what point `t` writes back is block `t` of the scores of the whole argument arrays; the 32 row blocks cover the
  result array, which therefore ends holding the scores.
-/
import proofs.«178102_j50637664420263_1_alg».proof.Proof.KernelIdealFrame
import proofs.«178102_j50637664420263_1_alg».proof.Proof.KernelProducts
import Idealize.ShloMosaic.Lib.Pipeline.Value

set_option maxRecDepth 16384

noncomputable section

namespace Cert.KernelIdeal.KScores

open Cert.KernelIdeal Cert.KernelIdeal.Gen Cert.KernelIdeal.GenP Cert.KernelIdeal.Products
open Idealize.ShloMosaic Idealize.ShloMosaic.TcCoe Idealize.SL.Sem Idealize.ShloMosaic.ValueIdx Cert.Scores
open Idealize.ShloMosaic.Pipeline (Dat)

theorem zero_offsets : (![0, 0] : Fin 2 → Nat) = fun _ => 0 := funext fun a => by fin_cases a <;> rfl

/-! ## The block the body leaves -/

/-- The value stored in columns `0 … 5531`, at its own index `x`, is the block's scores at the block index under `x`. -/
theorem labeled_piece (x0 : Vec Ideal S128x256 .f32) (x1 : Vec Ideal S5532x256 .f32) (x2 : Vec Ideal S5000x256 .f32)
    (x : S128x5532.Idx) :
    k0_pay2 (F := Ideal) x0 x1 x
      = scores x0 x1 x2 ((Rect.unit (s := S128x10532) ![0, 0] ![128, 5532] inb_S128x10532_S128x5532_0_0).emb x) := by
  obtain ⟨p, q, rfl⟩ : ∃ (p : Fin 128) (q : Fin 5532), x = ix2 p q := ⟨x 0, x 1, eq_ix2 x⟩
  rw [labeled_payload]
  exact (scores_labeled x0 x1 x2 _ p q (by show 0 + 1 * p.val = p.val; omega) (by show 0 + 1 * q.val = q.val; omega)).symm

/-- The value stored in columns `5532 … 10531`, at its own index `x`, is the block's scores at the block index under `x`:
    its column `q` sits at block column `5532 + q`. -/
theorem queue_piece (x0 : Vec Ideal S128x256 .f32) (x1 : Vec Ideal S5532x256 .f32) (x2 : Vec Ideal S5000x256 .f32)
    (x : S128x5000.Idx) :
    k0_pay3 (F := Ideal) x0 x2 x
      = scores x0 x1 x2 ((Rect.unit (s := S128x10532) ![0, 5532] ![128, 5000] inb_S128x10532_S128x5000_0_5532).emb x) := by
  obtain ⟨p, q, rfl⟩ : ∃ (p : Fin 128) (q : Fin 5000), x = ix2 p q := ⟨x 0, x 1, eq_ix2 x⟩
  rw [queue_payload]
  exact (scores_queue x0 x1 x2 _ p q (by show 0 + 1 * p.val = p.val; omega) (by show 5532 + 1 * q.val = 5532 + q.val; omega)).symm

/-- WHAT THE BODY LEAVES in its output block, on any staging memrefs: the scores of its block of features against the
    two tables it holds. Both stored values are entries of that one function, and together they cover the block. -/
theorem block_eq (c : Dev nD) (i : grid0.Coords) (arg1 : Memref sig .tc .vmem S128x256 .f32) (harg1 : arg1.IsWhole)
    (arg2 : Memref sig .tc .vmem S5532x256 .f32) (harg2 : arg2.IsWhole) (arg3 : Memref sig .tc .vmem S5000x256 .f32) (harg3 : arg3.IsWhole)
    (arg4 : Memref sig .tc .vmem S128x10532 .f32) (harg4 : arg4.IsWhole)
    (x0 : Vec Ideal S128x256 .f32) (x1 : Vec Ideal S5532x256 .f32) (x2 : Vec Ideal S5000x256 .f32) :
    out0_A_3 (F := Ideal) c i arg1 harg1 arg2 harg2 arg3 harg3 arg4 harg4 x0 x1 x2 = scores x0 x1 x2 := by
  unfold out0_A_3
  rw [View.read_writes_eq_canon _ _ _ (cover0_A_3 c i arg1 harg1 arg2 harg2 arg3 harg3 arg4 harg4 x0 x1 x2)]
  funext y
  refine View.canon_apply_of_pieces (scores x0 x1 x2) _ ?_ y (cover0_A_3 c i arg1 harg1 arg2 harg2 arg3 harg3 arg4 harg4 x0 x1 x2 y)
  unfold kernelRun0_A
  dsimp only
  intro p hp x
  simp only [List.mem_cons, List.mem_singleton, List.not_mem_nil, or_false] at hp
  rcases hp with rfl | rfl
  · simp only [View.readAt_eq_ld, harg1.read_unread, harg3.read_unread, View.ld_unit_zero (S := S128x256) zero_offsets,
      View.ld_unit_zero (S := S5000x256) zero_offsets]
    exact queue_piece x0 x1 x2 x
  · simp only [View.readAt_eq_ld, harg1.read_unread, harg2.read_unread, View.ld_unit_zero (S := S128x256) zero_offsets,
      View.ld_unit_zero (S := S5532x256) zero_offsets]
    exact labeled_piece x0 x1 x2 x

/-! ## From blocks to the array -/

variable (m : (ℓ : Loc nD τ sig) → Buf (Elt Ideal) ℓ) (ρ : Dev nD → PrngReg)

/-- The printed index maps, decided over the 32 grid points: the features' window and the output's move together down
    the rows (block row `t` at point `t`), the tables' windows stay at block `(0, 0)`, and no window moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the scores of the argument arrays as the region finds them. -/
theorem flushed_eq (c : Dev nD) (t : Fin cfg0.N) :
    (dats m 0 c).flushed 3 t
      = ((cfg0.win 3).blk t).view.read (Elt Ideal) (scores (V m c main_arg0) (V m c main_arg3) (V m c main_arg4)) := by
  show (cfg0.win 3).cut (grid0.coords t) ((dats m 0 c).after 3 t) = _
  rw [after0_3]
  unfold outsAt0
  rw [block_eq]
  obtain ⟨e00, e01, e10, e11, e20, e21, e30, e31⟩ := idx_facts t
  funext j
  refine scores_block (iblk m c 0 t) (V m c main_arg0) (iblk m c 1 t) (V m c main_arg3) (iblk m c 2 t) (V m c main_arg4) j
    (((cfg0.win 3).blk t).view.emb j) ?_ ?_ ?_ ?_
  · intro k
    show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 256 + 1 * k.val = k.val; omega
  · funext y
    show V m c main_arg3 (((cfg0.win 1).blk t).view.emb y) = V m c main_arg3 y
    refine congrArg (V m c main_arg3) (funext fun a => Fin.ext ?_)
    match a with
    | ⟨0, _⟩ => show win0_1.index t (0 : Fin 2) * 5532 + 1 * (y 0).val = (y 0).val; omega
    | ⟨1, _⟩ => show win0_1.index t (1 : Fin 2) * 256 + 1 * (y 1).val = (y 1).val; omega
  · funext y
    show V m c main_arg4 (((cfg0.win 2).blk t).view.emb y) = V m c main_arg4 y
    refine congrArg (V m c main_arg4) (funext fun a => Fin.ext ?_)
    match a with
    | ⟨0, _⟩ => show win0_2.index t (0 : Fin 2) * 5000 + 1 * (y 0).val = (y 0).val; omega
    | ⟨1, _⟩ => show win0_2.index t (1 : Fin 2) * 256 + 1 * (y 1).val = (y 1).val; omega
  · show win0_3.index t (1 : Fin 2) * 10532 + 1 * (j 1).val = (j 1).val
    omega

/-- An index of the result array is in point `t`'s block iff each coordinate is in the block's range on its axis. -/
theorem mem_blk (t : Fin cfg0.N) (i : S4096x10532.Idx) :
    i ∈ ((cfg0.win 3).blk t).view.set ↔ ∀ a : Fin 2, win0_3.index t a * S128x10532.size a ≤ (i a).val
      ∧ (i a).val < win0_3.index t a * S128x10532.size a + S128x10532.size a := by
  show i ∈ ((View.whole main_v0).slice (win0_3.rect t)).set ↔ _
  rw [View.set_slice_whole, Rect.mem_set_unit]
  exact Iff.rfl

/-- Every index of the result array is in some point's block: row `r` is in the block of point `r / 128`. -/
theorem covered (i : S4096x10532.Idx) :
    ∃ t : Fin cfg0.N, (cfg0.win 3).flush t = true ∧ i ∈ ((cfg0.win 3).blk t).view.set := by
  have hi0 : (i 0).val < 4096 := (i 0).isLt
  have hi1 : (i 1).val < 10532 := (i 1).isLt
  have hN : cfg0.N = 32 := N_0
  let t : Fin cfg0.N := ⟨(i 0).val / 128, by rw [hN]; omega⟩
  obtain ⟨-, -, -, -, -, -, e30, e31⟩ := idx_facts t
  have ht : t.val = (i 0).val / 128 := rfl
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 10532 ≤ (i 1).val ∧ (i 1).val < win0_3.index t (1 : Fin 2) * 10532 + 10532
    omega

/-- THE RESULT ARRAY after the run: the scores of the argument arrays. -/
theorem final (c : Dev nD) :
    (dats m 0 c).arrAt 3 cfg0.N
      = scores (m ((c : Thread nD τ).loc main_arg0)) (m ((c : Thread nD τ).loc main_arg3)) (m ((c : Thread nD τ).loc main_arg4)) :=
  (dats m 0 c).arrAt_eq_of_cover 3 _ (fun t _ => flushed_eq m c t) covered

/-! ## The run, read -/

/-- Every weakly fair execution of the kernel's @main terminates with the result array at the scores of the argument
    arrays and the argument arrays unchanged. -/
theorem run : θ_run defs (onTc (τ := τ) (main (F := Ideal))) ⟨m, fun _ => 0, ρ⟩ fun r => ∀ c : Dev nD,
      r.2.mem ((c : Thread nD τ).loc main_v0)
        = scores (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.KScores

end
-- ==== Proof.ReferenceScores.lean ====
/-
  The reference computes the similarity scores.

  The reference transposes each table, multiplies the features by it (`dot_general`, contracting the features'
  axis 1 with the transposed table's axis 0) and joins the two products along the columns. Read at an index:
  entry `(r, q)` of a product is `Σ_k x[r,k] · wᵀ[k,q] = Σ_k x[r,k] · w[q,k]`, the inner product of feature row `r`
  with table row `q`; and column `j` of the joined array is column `j` of the first product when `j < 5532`, column
  `j − 5532` of the second otherwise. That is `Cert.Scores.scores`.
-/
import proofs.«178102_j50637664420263_1_alg».proof.Proof.Gen.ReferenceIdeal.Read
import proofs.«178102_j50637664420263_1_alg».proof.Proof.Scores

noncomputable section

open scoped BigOperators

namespace Cert.ReferenceIdeal.RefScores

open Cert.ReferenceIdeal Cert.ReferenceIdeal.Gen Cert.ReferenceIdeal.Read
open Idealize.ShloMosaic Idealize.ShloMosaic.ValueIdx Cert.Scores

/-- Entry `(r, q)` of the features times the transposed labeled table is the inner product of feature row `r` with
    table row `q`. -/
theorem labeled_apply (x0 : (⟨S4096x256, .f32⟩ : BufTy).Contents (Elt Ideal)) (x3 : (⟨S5532x256, .f32⟩ : BufTy).Contents (Elt Ideal))
    (r : Fin 4096) (q : Fin 5532) :
    val_main_v1 (F := Ideal) x0 x3 (ix2 r q) = rowDot x0 x3 r q := by
  have el : ∀ k : Fin 256, lidx_main_v1 (ix2 r q) k = ix2 r k := fun k => funext fun a => by
    match a with
    | ⟨0, _⟩ => rfl
    | ⟨1, _⟩ => rfl
  have er : ∀ k : Fin 256, idx_main_v0 (ridx_main_v1 (ix2 r q) k) = ix2 q k := fun k => funext fun a => by
    match a with
    | ⟨0, _⟩ => rfl
    | ⟨1, _⟩ => rfl
  rw [val_main_v1_apply]
  unfold rowDot
  refine Finset.sum_congr rfl fun k _ => ?_
  rw [val_main_v0_apply, el, er]

/-- Entry `(r, q)` of the features times the transposed queue is the inner product of feature row `r` with queue
    row `q`. -/
theorem queue_apply (x0 : (⟨S4096x256, .f32⟩ : BufTy).Contents (Elt Ideal)) (x4 : (⟨S5000x256, .f32⟩ : BufTy).Contents (Elt Ideal))
    (r : Fin 4096) (q : Fin 5000) :
    val_main_v3 (F := Ideal) x0 x4 (ix2 r q) = rowDot x0 x4 r q := by
  have el : ∀ k : Fin 256, lidx_main_v3 (ix2 r q) k = ix2 r k := fun k => funext fun a => by
    match a with
    | ⟨0, _⟩ => rfl
    | ⟨1, _⟩ => rfl
  have er : ∀ k : Fin 256, idx_main_v2 (ridx_main_v3 (ix2 r q) k) = ix2 q k := fun k => funext fun a => by
    match a with
    | ⟨0, _⟩ => rfl
    | ⟨1, _⟩ => rfl
  rw [val_main_v3_apply]
  unfold rowDot
  refine Finset.sum_congr rfl fun k _ => ?_
  rw [val_main_v2_apply, el, er]

/-- The reference's result is the scores of the argument arrays: the join along the columns picks the labeled
    product below column 5532 and the queue product, its column shifted by 5532, from there on. -/
theorem reference_eq (x0 : (⟨S4096x256, .f32⟩ : BufTy).Contents (Elt Ideal)) (x3 : (⟨S5532x256, .f32⟩ : BufTy).Contents (Elt Ideal))
    (x4 : (⟨S5000x256, .f32⟩ : BufTy).Contents (Elt Ideal)) :
    val_main_v4 (F := Ideal) x0 x3 x4 = scores x0 x3 x4 := by
  funext i
  obtain ⟨r, j, rfl⟩ : ∃ (r : Fin 4096) (j : Fin 10532), i = ix2 r j := ⟨i 0, i 1, eq_ix2 i⟩
  rw [scores_ix2]
  unfold val_main_v4
  by_cases h : j.val < 5532
  · rw [concatenate_pair_apply_left (1 : Fin S4096x10532.rank) (val_main_v1 (F := Ideal) x0 x3) (val_main_v3 (F := Ideal) x0 x4)
      concatenates_S4096x5532_S4096x5000_S4096x10532_d1 (ix2 r j) rfl (ix2 r (⟨j.val, h⟩ : Fin 5532))
      (fun b => match b with
        | ⟨0, _⟩ => rfl
        | ⟨1, _⟩ => rfl)]
    rw [labeled_apply, entry_labeled x0 x3 x4 r ⟨j.val, h⟩ j rfl]
  · have h' : j.val - 5532 < 5000 := by have := j.isLt; omega
    rw [concatenate_pair_apply_right (1 : Fin S4096x10532.rank) (val_main_v1 (F := Ideal) x0 x3) (val_main_v3 (F := Ideal) x0 x4)
      concatenates_S4096x5532_S4096x5000_S4096x10532_d1 (ix2 r j) rfl rfl (ix2 r (⟨j.val - 5532, h'⟩ : Fin 5000))
      (fun b hb => by
        have hlt : b.val < 2 := b.isLt
        have hne : b.val ≠ 1 := fun h1 => hb (Fin.ext h1)
        obtain rfl : b = ⟨0, by decide⟩ := Fin.ext (by show b.val = 0; omega)
        rfl)
      (by show j.val - 5532 + 5532 = j.val; omega)]
    rw [queue_apply, entry_queue x0 x3 x4 r ⟨j.val - 5532, h'⟩ j (by show j.val = 5532 + (j.val - 5532); omega)]

end Cert.ReferenceIdeal.RefScores

end
-- ==== Proof.lean ====
/-
  The proof of `Cert.Claim`: the Pallas kernel that scores a batch of 4096 feature rows against a labeled table of
  5532 rows and a queue of 5000 rows — entry `(r, j)` of the 4096 × 10532 result is the inner product of feature row
  `r` with labeled row `j` for `j < 5532` and with queue row `j − 5532` otherwise — against the jnp reference
  `concatenate([inputs @ lut.T, inputs @ queue.T], axis = 1)`.

  At the ideal values both programs compute the same 256-term sums of products on the extended reals, term for term:
  the kernel contracts axis 1 of the features with axis 1 of each table (its narrowing of the operands to bf16 is
  the identity there, its accumulator starts at zero), the reference contracts it with axis 0 of the transposed table.
  No algebraic law beyond reading both sides at an index is needed, so the precondition is never opened.
  `Proof/Scores.lean` states the scores as one function of the three arrays; `Proof/ReferenceScores.lean` shows the
  reference's result is that function, `Proof/KernelProducts.lean` and `Proof/KernelScores.lean` that the kernel's result
  array ends holding it (each of the 32 grid points writes one block of 128 rows, and the blocks cover the array).
  The ideal pass rewrote nothing, so `preserves` is trivial.
-/
import proofs.«178102_j50637664420263_1_alg».proof.Defs
import proofs.«178102_j50637664420263_1_alg».proof.Proof.Gen.Kernel
import proofs.«178102_j50637664420263_1_alg».proof.Proof.Gen.KernelIdeal
import proofs.«178102_j50637664420263_1_alg».proof.Proof.Gen.ReferenceIdeal
import proofs.«178102_j50637664420263_1_alg».proof.Proof.Gen.Pre_finite_inputs
import proofs.«178102_j50637664420263_1_alg».proof.Proof.Gen.ReferenceIdeal.Run
import proofs.«178102_j50637664420263_1_alg».proof.Proof.Gen.ReferenceIdeal.Read
import proofs.«178102_j50637664420263_1_alg».proof.Proof.KernelFrame
import proofs.«178102_j50637664420263_1_alg».proof.Proof.KernelIdealFrame
import proofs.«178102_j50637664420263_1_alg».proof.Proof.KernelScores
import proofs.«178102_j50637664420263_1_alg».proof.Proof.ReferenceScores
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the scores of those arguments. -/
theorem algebraic : Cert.algebraic_KernelIdeal_ReferenceIdeal := by
  intro m ρ m' ρ' _ hagree
  refine ⟨_, Cert.KernelIdeal.KScores.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.2.1, (hagree c).2.2.2.2]
  exact Cert.ReferenceIdeal.RefScores.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
